-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S16384x1 : Shape := ⟨2, ![16384, 1]⟩
abbrev S1024x768 : Shape := ⟨2, ![1024, 768]⟩
abbrev S1024 : Shape := ⟨1, ![1024]⟩
abbrev S8x1x2048 : Shape := ⟨3, ![8, 1, 2048]⟩
abbrev S8x1 : Shape := ⟨2, ![8, 1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S8x1x2048 : S_.BroadcastsInDim S8x1x2048 (![] : Fin 0 → Fin S8x1x2048.rank)
  reducesTo_S8x1x2048_S_d0_1_2 : S8x1x2048.ReducesTo [0, 1, 2] S_
  bcast_S_S8x1 : S_.BroadcastsInDim S8x1 (![] : Fin 0 → Fin S8x1.rank)
  reducesTo_S8x1_S_d0_1 : S8x1.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part2 {F : FTy → Type} [FloatOps F] (main_arg2 : IVec S16384x1 32) (main_v32 : IVec S_ 1) (main_c_12 : IVec S_ 32) : IVec S_ 1 :=
  let main_v33 : IVec S16384x1 32 := broadcastInDim S16384x1 ![] bcast_S_S16384x1 main_c_12
  let main_v34 : IVec S16384x1 1 := cmpi .slt main_arg2 main_v33
  let main_c_13 : IVec S_ 1 := constantI S_ 1 1#1
  let main_v35 : IVec S_ 1 := (fun x v => Host.reduce IntOp.andi x v reducesTo_S16384x1_S_d0_1 h_S_) main_v34 main_c_13
  let main_v36 : IVec S_ 1 := andi main_v32 main_v35
  main_v36

def fn_part1 {F : FTy → Type} [FloatOps F] (main_arg2 : IVec S16384x1 32) (main_arg5 : FVec F S8x1x2048 .f32) (main_arg6 : FVec F S8x1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x1x2048 .f32 := Host.absf main_arg5
  let main_cst_6 : FVec F S_ .f32 := constant S_ .f32 0x7F800000#32
  let main_v20 : FVec F S8x1x2048 .f32 := broadcastInDim S8x1x2048 ![] bcast_S_S8x1x2048 main_cst_6
  let main_v21 : IVec S8x1x2048 1 := cmpf .olt main_v19 main_v20
  let main_c_7 : IVec S_ 1 := constantI S_ 1 1#1
  let main_v22 : IVec S_ 1 := (fun x v => Host.reduce IntOp.andi x v reducesTo_S8x1x2048_S_d0_1_2 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_c_10 : IVec S_ 32 := constantI S_ 32 0#32
  let main_v29 : IVec S16384x1 32 := broadcastInDim S16384x1 ![] bcast_S_S16384x1 main_c_10
  let main_v30 : IVec S16384x1 1 := cmpi .sge main_arg2 main_v29
  let main_c_11 : IVec S_ 1 := constantI S_ 1 1#1
  let main_v31 : IVec S_ 1 := (fun x v => Host.reduce IntOp.andi x v reducesTo_S16384x1_S_d0_1 h_S_) main_v30 main_c_11
  let main_v32 : IVec S_ 1 := andi main_v28 main_v31
  let main_c_12 : IVec S_ 32 := constantI S_ 32 8#32
  fn_part2 (F := F) main_arg2 main_v32 main_c_12

def fn {F : FTy → Type} [FloatOps F] (main_arg0 : FVec F S16384x768 .f32) (main_arg1 : FVec F S16384x768 .f32) (main_arg2 : IVec S16384x1 32) (main_arg3 : FVec F S1024x768 .f32) (main_arg4 : FVec F S1024 .f32) (main_arg5 : FVec F S8x1x2048 .f32) (main_arg6 : FVec F S8x1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg3
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_v13 main_v16
-- ==== Kernel.lean ====
abbrev S16384x768 : Shape := ⟨2, ![16384, 768]⟩
abbrev S16384x1 : Shape := ⟨2, ![16384, 1]⟩
abbrev S1024x768 : Shape := ⟨2, ![1024, 768]⟩
abbrev S1024 : Shape := ⟨1, ![1024]⟩
abbrev S8x1x2048 : Shape := ⟨3, ![8, 1, 2048]⟩
abbrev S8x1 : Shape := ⟨2, ![8, 1]⟩
abbrev S768x1024 : Shape := ⟨2, ![768, 1024]⟩
abbrev S1x1024 : Shape := ⟨2, ![1, 1024]⟩
abbrev S8x2048 : Shape := ⟨2, ![8, 2048]⟩
abbrev S2048x8 : Shape := ⟨2, ![2048, 8]⟩
abbrev S1024x8 : Shape := ⟨2, ![1024, 8]⟩
abbrev S8 : Shape := ⟨1, ![8]⟩
abbrev S1x8 : Shape := ⟨2, ![1, 8]⟩
abbrev S16x1x1024 : Shape := ⟨3, ![16, 1, 1024]⟩
abbrev S1024x1 : Shape := ⟨2, ![1024, 1]⟩
abbrev S1x1x1024 : Shape := ⟨3, ![1, 1, 1024]⟩
abbrev S1024x1024 : Shape := ⟨2, ![1024, 1024]⟩

abbrev nBuf : Space → Nat
  | .hbm => 20
  | .vmem => 13
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x1, .i32⟩
  | .hbm, ⟨3, _⟩ => ⟨S1024x768, .f32⟩
  | .hbm, ⟨4, _⟩ => ⟨S1024, .f32⟩
  | .hbm, ⟨5, _⟩ => ⟨S8x1x2048, .f32⟩
  | .hbm, ⟨6, _⟩ => ⟨S8x1, .f32⟩
  | .hbm, ⟨7, _⟩ => ⟨S768x1024, .f32⟩
  | .hbm, ⟨8, _⟩ => ⟨S768x1024, .bf16⟩
  | .hbm, ⟨9, _⟩ => ⟨S1x1024, .f32⟩
  | .hbm, ⟨10, _⟩ => ⟨S8x2048, .f32⟩
  | .hbm, ⟨11, _⟩ => ⟨S2048x8, .f32⟩
  | .hbm, ⟨12, _⟩ => ⟨S1024x8, .f32⟩
  | .hbm, ⟨13, _⟩ => ⟨S1024x8, .bf16⟩
  | .hbm, ⟨14, _⟩ => ⟨S1024x8, .f32⟩
  | .hbm, ⟨15, _⟩ => ⟨S1024x8, .bf16⟩
  | .hbm, ⟨16, _⟩ => ⟨S8, .f32⟩
  | .hbm, ⟨17, _⟩ => ⟨S1x8, .f32⟩
  | .hbm, ⟨18, _⟩ => ⟨S16x1x1024, .f32⟩
  | .hbm, ⟨19, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x1, .i32⟩
  | .local _ .vmem, ⟨5, _⟩ => ⟨S1024x1, .i32⟩
  | .local _ .vmem, ⟨6, _⟩ => ⟨S768x1024, .bf16⟩
  | .local _ .vmem, ⟨7, _⟩ => ⟨S1x1024, .f32⟩
  | .local _ .vmem, ⟨8, _⟩ => ⟨S1024x8, .bf16⟩
  | .local _ .vmem, ⟨9, _⟩ => ⟨S1024x8, .bf16⟩
  | .local _ .vmem, ⟨10, _⟩ => ⟨S1x8, .f32⟩
  | .local _ .vmem, ⟨11, _⟩ => ⟨S1x1x1024, .f32⟩
  | .local _ .vmem, ⟨12, _⟩ => ⟨S1x1x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x768_S768x1024_1_0 : S1024x768.Transposes [1, 0] S768x1024
  bitsLt_bf16_f32 : FTy.bits .bf16 < FTy.bits .f32
  shapeCasts_S1024_S1x1024 : S1024.ShapeCasts S1x1024
  shapeCasts_S8x1x2048_S8x2048 : S8x1x2048.ShapeCasts S8x2048
  transposes_S8x2048_S2048x8_1_0 : S8x2048.Transposes [1, 0] S2048x8
  slices_S2048x8_S1024x8_0_0 : S2048x8.Slices ![0, 0] S1024x8
  slices_S2048x8_S1024x8_1024_0 : S2048x8.Slices ![1024, 0] S1024x8
  shapeCasts_S8x1_S8 : S8x1.ShapeCasts S8
  shapeCasts_S8_S1x8 : S8.ShapeCasts S1x8
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024x768_S1024x768_0_0 : ∀ a, (![0, 0] : Fin 2 → Nat) a + S1024x768.size a ≤ S1024x768.size a
  h_S1024x768 : 0 < S1024x768.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S1024x1_S1024x1_0_0 : ∀ a, (![0, 0] : Fin 2 → Nat) a + S1024x1.size a ≤ S1024x1.size a
  h_S1024x1 : 0 < S1024x1.numel
  iota_S1024x8_d1_w32 : S1024x8.Iotas .tc 32 [1]
  broadcasts_S1024x1_S1024x8 : S1024x1.Broadcasts S1024x8
  natLt_1_32 : 1 < 32
  reduces_S1024x8_S1024 : S1024x8.Reduces [1] S1024
  shapeCasts_S1024_S1024x1 : S1024.ShapeCasts S1024x1
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384x1 : S16x1x1024.ShapeCasts S16384x1
  dot_S1024x768_S768x1024_S1024x1024_1_0_0_1_n_n_wf : DotDims.WF S1024x768 S768x1024 S1024x1024 [1] [0] [0] [1] [] []
  dot_S1024x1024_S1024x8_S1024x8_1_0_0_1_n_n_wf : DotDims.WF S1024x1024 S1024x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x8.size a ≤ S1024x8.size a
  hwx0_5 : ∀ i : grid0.Coords, EltTy.bits .bf16 = 32 ∨ (Rect.block (s := S1024x8) S1024x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x8.size a ≤ S1024x8.size a
  hwx0_6 : ∀ i : grid0.Coords, EltTy.bits .bf16 = 32 ∨ (Rect.block (s := S1024x8) S1024x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S16x1x1024.size a
  hwx0_8 : ∀ i : grid0.Coords, EltTy.bits .f32 = 32 ∨ (Rect.block (s := S16x1x1024) S1x1x1024.size (cc0_transform_8 i) (hinb0_8 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x768 : Shape := ⟨2, ![16384, 768]⟩
abbrev S16384x1 : Shape := ⟨2, ![16384, 1]⟩
abbrev S1024x768 : Shape := ⟨2, ![1024, 768]⟩
abbrev S1024 : Shape := ⟨1, ![1024]⟩
abbrev S8x1x2048 : Shape := ⟨3, ![8, 1, 2048]⟩
abbrev S8x1 : Shape := ⟨2, ![8, 1]⟩
abbrev S768x1024 : Shape := ⟨2, ![768, 1024]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x8x1 : Shape := ⟨3, ![16384, 8, 1]⟩
abbrev S1x8x1 : Shape := ⟨3, ![1, 8, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x1, .i32⟩
  | .hbm, ⟨3, _⟩ => ⟨S1024x768, .f32⟩
  | .hbm, ⟨4, _⟩ => ⟨S1024, .f32⟩
  | .hbm, ⟨5, _⟩ => ⟨S8x1x2048, .f32⟩
  | .hbm, ⟨6, _⟩ => ⟨S8x1, .f32⟩
  | .hbm, ⟨7, _⟩ => ⟨S768x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S768x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x8x1, .f32⟩
  | .hbm, ⟨27, _⟩ => ⟨S1x8x1, .f32⟩
  | .hbm, ⟨28, _⟩ => ⟨S16384x8x1, .f32⟩
  | .hbm, ⟨29, _⟩ => ⟨S16384x8x1, .f32⟩
  | .hbm, ⟨30, _⟩ => ⟨S16384x1x1, .i32⟩
  | .hbm, ⟨31, _⟩ => ⟨S_, .i32⟩
  | .hbm, ⟨32, _⟩ => ⟨S16384x1x1, .i32⟩
  | .hbm, ⟨33, _⟩ => ⟨S16384x1x1, .i1⟩
  | .hbm, ⟨34, _⟩ => ⟨S_, .i32⟩
  | .hbm, ⟨35, _⟩ => ⟨S16384x1x1, .i32⟩
  | .hbm, ⟨36, _⟩ => ⟨S16384x1x1, .i32⟩
  | .hbm, ⟨37, _⟩ => ⟨S16384x1x1, .i32⟩
  | .hbm, ⟨38, _⟩ => ⟨S1, .i32⟩
  | .hbm, ⟨39, _⟩ => ⟨S_, .i32⟩
  | .hbm, ⟨40, _⟩ => ⟨S16384x1x1, .i32⟩
  | .hbm, ⟨41, _⟩ => ⟨S16384x1x1, .i1⟩
  | .hbm, ⟨42, _⟩ => ⟨S1x1x1, .i32⟩
  | .hbm, ⟨43, _⟩ => ⟨S16384x1x1, .i32⟩
  | .hbm, ⟨44, _⟩ => ⟨S16384x1x1, .i1⟩
  | .hbm, ⟨45, _⟩ => ⟨S16384x1x1, .i1⟩
  | .hbm, ⟨46, _⟩ => ⟨S_, .i1⟩
  | .hbm, ⟨47, _⟩ => ⟨S16384x1, .i1⟩
  | .hbm, ⟨48, _⟩ => ⟨S16384x1x1, .f32⟩
  | .hbm, ⟨49, _⟩ => ⟨S16384x1x1, .i1⟩
  | .hbm, ⟨50, _⟩ => ⟨S_, .f32⟩
  | .hbm, ⟨51, _⟩ => ⟨S16384x1x1, .f32⟩
  | .hbm, ⟨52, _⟩ => ⟨S16384x1x1, .f32⟩
  | .hbm, ⟨53, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v17 : Ref sig .tc := ⟨.hbm, 52, rfl⟩
abbrev main_v18 : Ref sig .tc := ⟨.hbm, 53, rfl⟩

abbrev nD : Nat := 1
abbrev τ : Topo := Topo.v7x

variable {F : FTy → Type} [FloatOps F]

class Facts₀ : Prop where
  transposes_S1024x768_S768x1024_1_0 : S1024x768.Transposes [1, 0] S768x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S8x1_S1x8x1_1_2 : S8x1.BroadcastsInDim S1x8x1 (![1, 2] : Fin 2 → Fin S1x8x1.rank)
  bcast_S1x8x1_S16384x8x1_0_1_2 : S1x8x1.BroadcastsInDim S16384x8x1 (![0, 1, 2] : Fin 3 → Fin S16384x8x1.rank)
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1x1_S16384x1 : S16384x1x1.ShapeCasts S16384x1
  dot_S16384x768_S768x1024_S16384x1024_1_0_0_1_n_n_wf : DotDims.WF S16384x768 S768x1024 S16384x1024 [1] [0] [0] [1] [] []
  dot_S16384x2048_S8x1x2048_S16384x8x1_1_2_0_01_n_n_wf : DotDims.WF S16384x2048 S8x1x2048 S16384x8x1 [1] [2] [0] [0, 1] [] []
  gather_S16384x8x1_S16384x1x1_S16384x1x1_2_1_0_0_1_2_111_wf : GatherDims.WF S16384x8x1 S16384x1x1 S16384x1x1 [2] [1] [0] [1] [0] 2 ![1, 1, 1]

variable [Facts₀]

def dot_S16384x768_S768x1024_S16384x1024_1_0_0_1_n_n : DotDims S16384x768 S768x1024 S16384x1024 where
  lhsContracting := [1]
  rhsContracting := [0]
  lhsNonContracting := [0]
  rhsNonContracting := [1]
  lhsBatch := []
  rhsBatch := []
  wf := dot_S16384x768_S768x1024_S16384x1024_1_0_0_1_n_n_wf
def dot_S16384x2048_S8x1x2048_S16384x8x1_1_2_0_01_n_n : DotDims S16384x2048 S8x1x2048 S16384x8x1 where
  lhsContracting := [1]
  rhsContracting := [2]
  lhsNonContracting := [0]
  rhsNonContracting := [0, 1]
  lhsBatch := []
  rhsBatch := []
  wf := dot_S16384x2048_S8x1x2048_S16384x8x1_1_2_0_01_n_n_wf
def gather_S16384x8x1_S16384x1x1_S16384x1x1_2_1_0_0_1_2_111 : GatherDims S16384x8x1 S16384x1x1 S16384x1x1 where
  offsetDims := [2]
  collapsedSliceDims := [1]
  operandBatchingDims := [0]
  startIndicesBatchingDims := [0]
  startIndexMap := [1]
  indexVectorDim := 2
  sliceSizes := ![1, 1, 1]
  wf := gather_S16384x8x1_S16384x1x1_S16384x1x1_2_1_0_0_1_2_111_wf

class Facts : Prop extends Facts₀ where

variable [Facts]
-- ==== Proof.Words.lean ====
/-
  A bucket selector as a 32-bit word.

  A selector is a valid bucket index when, read as a signed integer, it lies in [0, 8). For such a word the
  kernel's clamp into [0, 7] is the identity, the reference's wrap of negative indices (add 8 when below zero) is the
  identity, its bounds test 0 ≤ · ≤ 7 passes, its signed value is its unsigned value, and comparing it with a
  column number j < 8 is deciding j = value. The one-hot factor the kernel multiplies by — the comparison bit
  widened to 32 bits and converted to a float — is the real 1 on a set bit and 0 on a clear one.
-/
import Idealize.ShloMosaic.PureOps.Ideal
import Idealize.ShloMosaic.Lib.ValueIdx
import Idealize.ShloMosaic.Lib.StableHlo.Predicate

noncomputable section

namespace Cert.Bucket

open Idealize.ShloMosaic Idealize.ShloMosaic.ValueIdx

/-- The word, read signed, is at least 0 and below 8: what the two comparisons of the precondition say. -/
def InRange (s : BitVec 32) : Prop := IntOp.cmpi .sge s 0#32 = 1#1 ∧ IntOp.cmpi .slt s 8#32 = 1#1

theorem toInt_bounds {s : BitVec 32} (h : InRange s) : 0 ≤ s.toInt ∧ s.toInt < 8 := by
  obtain ⟨h0, h8⟩ := h
  simp only [IntOp.cmpi, StableHlo.Predicate.ofBool_eq_one_iff, BitVec.sle, BitVec.slt, decide_eq_true_eq] at h0 h8
  have e0 : (0#32 : BitVec 32).toInt = 0 := by decide
  have e8 : (8#32 : BitVec 32).toInt = 8 := by decide
  rw [e0] at h0; rw [e8] at h8
  exact ⟨h0, h8⟩

theorem toNat_lt {s : BitVec 32} (h : InRange s) : s.toNat < 8 := by
  obtain ⟨h0, h8⟩ := toInt_bounds h
  have := BitVec.toInt_eq_toNat_cond s
  have hlt := s.isLt
  split at this <;> omega

theorem toInt_eq {s : BitVec 32} (h : InRange s) : s.toInt = s.toNat := by
  obtain ⟨h0, h8⟩ := toInt_bounds h
  have := BitVec.toInt_eq_toNat_cond s
  have hlt := s.isLt
  split at this <;> omega

/-- The gather's clamp of the signed value into [0, 7] leaves it alone. -/
theorem clamp_toNat {s : BitVec 32} (h : InRange s) : min s.toInt.toNat 7 = s.toNat := by
  have := toNat_lt h
  rw [toInt_eq h, Int.toNat_natCast]
  omega

/-- The kernel's clamp, minimum of 7 with the maximum of 0 and the word, is the word. -/
theorem kernel_clamp {s : BitVec 32} (h : InRange s) : IntOp.minsi 7#32 (IntOp.maxsi 0#32 s) = s := by
  obtain ⟨h0, h8⟩ := toInt_bounds h
  have e0 : (0#32 : BitVec 32).toInt = 0 := by decide
  have e7 : (7#32 : BitVec 32).toInt = 7 := by decide
  have hmax : IntOp.maxsi 0#32 s = s := by
    unfold IntOp.maxsi
    rw [if_neg]
    simp only [BitVec.slt, e0, decide_eq_true_eq]; omega
  rw [hmax]
  unfold IntOp.minsi
  rw [if_neg]
  simp only [BitVec.slt, e7, decide_eq_true_eq]; omega

/-- The reference's wrap of a negative index does not fire. -/
theorem ref_wrap {s : BitVec 32} (h : InRange s) :
    Scalar.select (IntOp.cmpi .slt s 0#32) (IntOp.addi s 8#32) s = s := by
  obtain ⟨h0, h8⟩ := toInt_bounds h
  have e0 : (0#32 : BitVec 32).toInt = 0 := by decide
  have hc : IntOp.cmpi .slt s 0#32 = 0#1 := by
    refine eq_zero_of_ne_one fun hc => ?_
    simp only [IntOp.cmpi, StableHlo.Predicate.ofBool_eq_one_iff, BitVec.slt, e0, decide_eq_true_eq] at hc
    omega
  rw [hc]
  exact select_zero _ _

/-- The reference's bounds test on the (unwrapped) index passes. -/
theorem ref_bounds {s : BitVec 32} (h : InRange s) :
    IntOp.andi (IntOp.cmpi .sge s 0#32) (IntOp.cmpi .sle s 7#32) = 1#1 := by
  obtain ⟨h0, h8⟩ := toInt_bounds h
  have e7 : (7#32 : BitVec 32).toInt = 7 := by decide
  have h7 : IntOp.cmpi .sle s 7#32 = 1#1 := by
    simp only [IntOp.cmpi, StableHlo.Predicate.ofBool_eq_one_iff, BitVec.sle, e7, decide_eq_true_eq]
    omega
  rw [h.1, h7]
  decide

/-- A column number below 8 equals the selector as a word exactly when it is the selector's value. -/
theorem cmp_col {s : BitVec 32} (h : InRange s) (j : Fin 8) :
    IntOp.cmpi .eq (BitVec.ofNat 32 j.val) s = if j.val = s.toNat then 1#1 else 0#1 := by
  have hj := j.isLt
  split
  · next e =>
    rw [StableHlo.Predicate.cmpi_eq_iff]
    apply BitVec.eq_of_toNat_eq
    rw [BitVec.toNat_ofNat, ← e]
    omega
  · next e =>
    refine eq_zero_of_ne_one fun hc => e ?_
    rw [StableHlo.Predicate.cmpi_eq_iff] at hc
    rw [← hc, BitVec.toNat_ofNat]
    omega

/-- The one-hot factor: a set bit is the real one, a clear bit zero. -/
theorem onehot_one : FloatOps.sitofp (F := Ideal) .f32 ((1#1 : BitVec 1).setWidth 32) = (1 : EReal) := by
  show (((((1#1 : BitVec 1).setWidth 32).toInt : ℝ)) : EReal) = 1
  have : ((1#1 : BitVec 1).setWidth 32).toInt = 1 := by decide
  rw [this]; simp

theorem onehot_zero : FloatOps.sitofp (F := Ideal) .f32 ((0#1 : BitVec 1).setWidth 32) = (0 : EReal) := by
  show (((((0#1 : BitVec 1).setWidth 32).toInt : ℝ)) : EReal) = 0
  have : ((0#1 : BitVec 1).setWidth 32).toInt = 0 := by decide
  rw [this]; simp

end Cert.Bucket

end
-- ==== Proof.Spec.lean ====
/-
  The mathematics of one row.

  For a row of each of the two embeddings, xr0 and xr1 (768 entries each), the accumulator weights W (1024 × 768) and
  bias b, the head weights O (8 buckets × 1 × 2048) and head bias ob (8 × 1):
    act0 a = clip (Σ_k xr0 k · W(a, k) + b a),   act1 a likewise from xr1,   clip v = min 6 (max 0 v),
  and bucket j's output is
    Σ_{a < 1024} act0 a · O(j, 0, a) + Σ_{a < 1024} act1 a · O(j, 0, 1024 + a) + ob(j, 0).
  That is the kernel's arrangement (two half-length products added). The reference concatenates act0 and act1 into
  one vector of length 2048 and takes one product of length 2048; a finite sum over 2048 indices is the sum over the
  first 1024 plus the sum over the last 1024, in any commutative monoid, so no finiteness is used. The answer for the
  row is the output of the selected bucket; the kernel reaches it as Σ_j out j · [j = selected], and a sum against an
  indicator is the selected term because v · 0 = 0 and v · 1 = v for every extended real v.
-/
import Idealize.ShloMosaic.PureOps.Ideal
import Idealize.ShloMosaic.Lib.ValueIdx
import Mathlib.Algebra.BigOperators.Fin

noncomputable section

namespace Cert.Row

open Idealize.ShloMosaic Idealize.ShloMosaic.ValueIdx

/-- ReLU6 on the extended reals, with the bounds as the two programs spell them (the words of 0.0 and 6.0). -/
def clip (v : EReal) : EReal := min (Ideal.ofBits .f32 0x40C00000#32) (max (Ideal.ofBits .f32 0x00000000#32) v)

/-- One perspective's clipped accumulator entry a. -/
def act (xr : Fin 768 → EReal) (W : (⟨2, ![1024, 768]⟩ : Shape).Idx → EReal) (b : (⟨1, ![1024]⟩ : Shape).Idx → EReal)
    (a : Fin 1024) : EReal :=
  clip ((∑ k : Fin 768, xr k * W (ix2 a k)) + b (ix1 a))

/-- Bucket j's output for the row, as two half-length products. -/
def out (xr0 xr1 : Fin 768 → EReal) (W : (⟨2, ![1024, 768]⟩ : Shape).Idx → EReal) (b : (⟨1, ![1024]⟩ : Shape).Idx → EReal)
    (O : (⟨3, ![8, 1, 2048]⟩ : Shape).Idx → EReal) (ob : (⟨2, ![8, 1]⟩ : Shape).Idx → EReal) (j : Fin 8) : EReal :=
  ((∑ a : Fin 1024, act xr0 W b a * O (ix3 j (0 : Fin 1) ⟨a.val, by omega⟩))
    + (∑ a : Fin 1024, act xr1 W b a * O (ix3 j (0 : Fin 1) ⟨1024 + a.val, by omega⟩)))
  + ob (ix2 j (0 : Fin 1))

/-- The row's answer when the selector's value is n: the output of bucket n (read modulo 8, so that the definition
    needs no side condition; a valid selector is below 8). -/
def selected (xr0 xr1 : Fin 768 → EReal) (W : (⟨2, ![1024, 768]⟩ : Shape).Idx → EReal) (b : (⟨1, ![1024]⟩ : Shape).Idx → EReal)
    (O : (⟨3, ![8, 1, 2048]⟩ : Shape).Idx → EReal) (ob : (⟨2, ![8, 1]⟩ : Shape).Idx → EReal) (n : ℕ) : EReal :=
  out xr0 xr1 W b O ob ⟨n % 8, Nat.mod_lt _ (by decide)⟩

/-- A sum over 2048 indices splits at 1024. -/
theorem sum_split (f : Fin 2048 → EReal) :
    (∑ d : Fin 2048, f d) = (∑ a : Fin 1024, f ⟨a.val, by omega⟩) + ∑ a : Fin 1024, f ⟨1024 + a.val, by omega⟩ :=
  Fin.sum_univ_add (a := 1024) (b := 1024) f

/-- A sum against the indicator of one bucket is that bucket's term. -/
theorem sum_indicator (v : Fin 8 → EReal) (n : ℕ) (hn : n < 8) :
    (∑ j : Fin 8, v j * (if j.val = n then (1 : EReal) else 0)) = v ⟨n, hn⟩ := by
  rw [Finset.sum_eq_single (⟨n, hn⟩ : Fin 8)]
  · rw [if_pos rfl, mul_one]
  · intro j _ hj
    rw [if_neg (fun e => hj (Fin.ext e)), mul_zero]
  · intro h; exact absurd (Finset.mem_univ _) h

end Cert.Row

end
-- ==== Proof.LibTakeAlong.lean ====
/-
  take_along_axis as a gather, read at an index.

  jnp.take_along_axis(x, idx, axis=1) for x : [B, N, 1] and idx : [B, 1, 1] lowers to a stablehlo.gather whose axis 0 is
  a batching axis of both the operand and the start indices, whose axis 1 is collapsed and is the one the start index
  addresses, and whose axis 2 is the single offset axis (slice sizes all 1). Result element (r, 0, 0) is the operand
  at (r, i, 0) where i is the start index idx(r, 0, 0) read as a signed integer and clamped into [0, N - 1], as
  StableHLO's gather clamps every start index. General in B and N and in the index width.
-/
import Idealize.ShloMosaic.PureOps.ShapeOps
import Idealize.ShloMosaic.Lib.ValueIdx

noncomputable section

namespace Idealize.ShloMosaic.TakeAlong

open Idealize.ShloMosaic Idealize.ShloMosaic.ValueIdx

variable {α : Type}

/-- Those dimension numbers; a program's own record of them is this one up to its proof field. -/
abbrev dims (B N : Nat)
    (wf : GatherDims.WF ⟨3, ![B, N, 1]⟩ ⟨3, ![B, 1, 1]⟩ ⟨3, ![B, 1, 1]⟩ [2] [1] [0] [1] [0] 2 ![1, 1, 1]) :
    GatherDims ⟨3, ![B, N, 1]⟩ ⟨3, ![B, 1, 1]⟩ ⟨3, ![B, 1, 1]⟩ where
  offsetDims := [2]
  collapsedSliceDims := [1]
  operandBatchingDims := [0]
  startIndicesBatchingDims := [0]
  startIndexMap := [1]
  indexVectorDim := 2
  sliceSizes := ![1, 1, 1]
  wf := wf

variable {B N w : Nat}
  (wf : GatherDims.WF ⟨3, ![B, N, 1]⟩ ⟨3, ![B, 1, 1]⟩ ⟨3, ![B, 1, 1]⟩ [2] [1] [0] [1] [0] 2 ![1, 1, 1])
  (idx : IVec ⟨3, ![B, 1, 1]⟩ w) (r : Fin B)

/-- On the batching axis the operand is read at the result's row. -/
theorem operand_row :
    ((dims B N wf).operandIdx (ix3 r (0 : Fin 1) (0 : Fin 1)) idx 0).val = r.val := by
  show (dims B N wf).start _ idx 0 + (dims B N wf).batchCoord _ 0 + (dims B N wf).offCoord _ 0 = r.val
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  unfold GatherDims.batchCoord
  rw [dif_pos (show (0 : Fin 3) ∈ (dims B N wf).operandBatchingDims from List.mem_singleton.mpr rfl)]
  rfl

/-- The start index is read at the result's row. -/
theorem start_site :
    (dims B N wf).siIdx (ix3 r (0 : Fin 1) (0 : Fin 1)) ⟨List.idxOf (1 : Fin 3) (dims B N wf).startIndexMap,
      List.idxOf_lt_length_iff.2 (List.mem_singleton.mpr rfl)⟩ = ix3 r (0 : Fin 1) (0 : Fin 1) := by
  funext b; refine Fin.ext ?_
  match b with
  | ⟨0, _⟩ => rfl
  | ⟨1, _⟩ => rfl
  | ⟨2, _⟩ => rfl

/-- On the indexed axis the operand is read at the clamped signed start index. -/
theorem operand_col :
    ((dims B N wf).operandIdx (ix3 r (0 : Fin 1) (0 : Fin 1)) idx 1).val
      = min (idx (ix3 r (0 : Fin 1) (0 : Fin 1))).toInt.toNat (N - 1) := by
  show (dims B N wf).start _ idx 1 + (dims B N wf).batchCoord _ 1 + (dims B N wf).offCoord _ 1 = _
  rw [GatherDims.batchCoord_eq_zero _ _ _ (fun h => absurd (congrArg Fin.val (List.mem_singleton.mp h)) Nat.one_ne_zero),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (dims B N wf).startIndexMap from List.mem_singleton.mpr rfl), start_site]
  rfl

/-- On the offset axis (extent 1) it is read at 0. -/
theorem operand_unit :
    ((dims B N wf).operandIdx (ix3 r (0 : Fin 1) (0 : Fin 1)) idx 2).val = 0 := by
  have h := ((dims B N wf).operandIdx (ix3 r (0 : Fin 1) (0 : Fin 1)) idx 2).isLt
  have : (⟨3, ![B, N, 1]⟩ : Shape).size 2 = 1 := rfl
  omega

/-- THE GATHER READ AT (r, 0, 0). -/
theorem gather_apply (hN : 0 < N) (x : (⟨3, ![B, N, 1]⟩ : Shape).Idx → α) :
    Host.gather (dims B N wf) x idx (ix3 r (0 : Fin 1) (0 : Fin 1))
      = x (ix3 r ⟨min (idx (ix3 r (0 : Fin 1) (0 : Fin 1))).toInt.toNat (N - 1), by omega⟩ (0 : Fin 1)) := by
  unfold Host.gather
  congr 1
  funext a
  refine Fin.ext ?_
  match a with
  | ⟨0, _⟩ => exact operand_row wf idx r
  | ⟨1, _⟩ => exact operand_col wf idx r
  | ⟨2, _⟩ => exact operand_unit wf idx r

end Idealize.ShloMosaic.TakeAlong

end
-- ==== Proof.LibAllOnes.lean ====
/-
  A reduction by "and" of an array of ones.

  A stablehlo.reduce of a one-bit array by "and", started from a one, is one at every result index when every element
  of the array is one: the fold meets only ones. (The converse direction, from the result being one to every element,
  is the library's; this is the direction a mask known to be all true needs.) General in the shapes and axes.
-/
import Idealize.ShloMosaic.PureOps.Reduce

namespace Idealize.ShloMosaic.AllOnes

open Idealize.ShloMosaic

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_ones x hx _

end Idealize.ShloMosaic.AllOnes
-- ==== Proof.RefValue.lean ====
/-
  The reference's result, entry by entry.

  Row r of the reference's result is: the accumulator applied to row r of each embedding, concatenated and clipped; the
  eight bucket outputs as one product of length 2048 with the head weights, plus the head bias; and of those the one the
  selector names, through take_along_axis. For a selector in [0, 8) the wrap of negative indices does not fire, the
  bounds mask is true (so the NaN fill is never selected), and the gather's clamp is the identity, so the entry is the
  output of bucket sel(r). Splitting the length-2048 product at the concatenation boundary gives the two half-length
  products of the row formula.
-/
import proofs.«408228_j83640193122666_3_alg».proof.Proof.RefRead
import proofs.«408228_j83640193122666_3_alg».proof.Proof.Words
import proofs.«408228_j83640193122666_3_alg».proof.Proof.Spec
import proofs.«408228_j83640193122666_3_alg».proof.Proof.LibTakeAlong
import proofs.«408228_j83640193122666_3_alg».proof.Proof.LibAllOnes
import Idealize.ShloMosaic.Lib.Pipeline.Value

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

variable (x0 x1 : (⟨S16384x768, .f32⟩ : BufTy).Contents (Elt Ideal)) (x2 : (⟨S16384x1, .i32⟩ : BufTy).Contents (Elt Ideal))
  (x3 : (⟨S1024x768, .f32⟩ : BufTy).Contents (Elt Ideal)) (x4 : (⟨S1024, .f32⟩ : BufTy).Contents (Elt Ideal))
  (x5 : (⟨S8x1x2048, .f32⟩ : BufTy).Contents (Elt Ideal)) (x6 : (⟨S8x1, .f32⟩ : BufTy).Contents (Elt Ideal))

/-! ## The accumulator -/

/-- The first perspective before the clip, at (r, a): row r of the embedding against row a of the weights, plus the bias. -/
theorem pre0_at (r : Fin 16384) (a : Fin 1024) :
    val_main_v4 (F := Ideal) x0 x3 x4 (ix2 r a) = (∑ k : Fin 768, x0 (ix2 r k) * x3 (ix2 a k)) + x4 (ix1 a) := by
  have el : ∀ k, lidx_main_v1 (ix2 r a) k = ix2 r k := fun k => funext fun d => Fin.ext (by
    match d with | ⟨0, _⟩ => rfl | ⟨1, _⟩ => rfl)
  have er : ∀ k, idx_main_v0 (ridx_main_v1 (ix2 r a) k) = ix2 a k := fun k => funext fun d => Fin.ext (by
    match d with | ⟨0, _⟩ => rfl | ⟨1, _⟩ => rfl)
  have eb : idx_main_v2 (idx_main_v3 (ix2 r a)) = ix1 a := funext fun d => Fin.ext (by
    match d with | ⟨0, _⟩ => rfl)
  rw [val_main_v4_apply, val_main_v1_apply, val_main_v3_apply, val_main_v2_apply, eb]
  refine congrArg₂ (· + ·) (Finset.sum_congr rfl fun k _ => ?_) rfl
  rw [val_main_v0_apply, el, er]

/-- The second perspective, likewise. -/
theorem pre1_at (r : Fin 16384) (a : Fin 1024) :
    val_main_v9 (F := Ideal) x1 x3 x4 (ix2 r a) = (∑ k : Fin 768, x1 (ix2 r k) * x3 (ix2 a k)) + x4 (ix1 a) := by
  have el : ∀ k, lidx_main_v6 (ix2 r a) k = ix2 r k := fun k => funext fun d => Fin.ext (by
    match d with | ⟨0, _⟩ => rfl | ⟨1, _⟩ => rfl)
  have er : ∀ k, idx_main_v5 (ridx_main_v6 (ix2 r a) k) = ix2 a k := fun k => funext fun d => Fin.ext (by
    match d with | ⟨0, _⟩ => rfl | ⟨1, _⟩ => rfl)
  have eb : idx_main_v7 (idx_main_v8 (ix2 r a)) = ix1 a := funext fun d => Fin.ext (by
    match d with | ⟨0, _⟩ => rfl)
  rw [val_main_v9_apply, val_main_v6_apply, val_main_v8_apply, val_main_v7_apply, eb]
  refine congrArg₂ (· + ·) (Finset.sum_congr rfl fun k _ => ?_) rfl
  rw [val_main_v5_apply, el, er]

/-! ## The concatenated, clipped vector: its two halves -/

theorem comb_left (r : Fin 16384) (a : Fin 1024) :
    val_main_v11 (F := Ideal) x0 x1 x3 x4 (ix2 r (⟨a.val, by omega⟩ : Fin 2048))
      = Cert.Row.act (fun k => x0 (ix2 r k)) x3 x4 a := by
  have hc : val_main_v10 (F := Ideal) x0 x1 x3 x4 (ix2 r (⟨a.val, by omega⟩ : Fin 2048))
      = val_main_v4 (F := Ideal) x0 x3 x4 (ix2 r a) := by
    unfold val_main_v10
    exact concatenate_pair_apply_left (t := S16384x2048) (s₁ := S16384x1024) (s₂ := S16384x1024) 1 _ _ _ (ix2 r (⟨a.val, by omega⟩ : Fin 2048)) rfl (ix2 r a)
      (fun b => match b with | ⟨0, _⟩ => rfl | ⟨1, _⟩ => rfl)
  rw [val_main_v11_apply, val_main_call0_v4_apply, val_main_call0_v3_apply, val_main_cst_0_apply, val_main_call0_v2_apply,
    val_main_call0_v1_apply, val_main_call0_v0_apply, val_main_cst_apply, hc, pre0_at]
  rfl

theorem comb_right (r : Fin 16384) (a : Fin 1024) :
    val_main_v11 (F := Ideal) x0 x1 x3 x4 (ix2 r (⟨1024 + a.val, by omega⟩ : Fin 2048))
      = Cert.Row.act (fun k => x1 (ix2 r k)) x3 x4 a := by
  have hc : val_main_v10 (F := Ideal) x0 x1 x3 x4 (ix2 r (⟨1024 + a.val, by omega⟩ : Fin 2048))
      = val_main_v9 (F := Ideal) x1 x3 x4 (ix2 r a) := by
    unfold val_main_v10
    exact concatenate_pair_apply_right (t := S16384x2048) (s₁ := S16384x1024) (s₂ := S16384x1024) 1 _ _ _ (ix2 r (⟨1024 + a.val, by omega⟩ : Fin 2048)) rfl rfl (ix2 r a)
      (fun b hb => match b, hb with | ⟨0, _⟩, _ => rfl | ⟨1, _⟩, hb => absurd rfl hb)
      (by show a.val + 1024 = 1024 + a.val; omega)
  rw [val_main_v11_apply, val_main_call0_v4_apply, val_main_call0_v3_apply, val_main_cst_0_apply, val_main_call0_v2_apply,
    val_main_call0_v1_apply, val_main_call0_v0_apply, val_main_cst_apply, hc, pre1_at]
  rfl

/-! ## The eight bucket outputs -/

theorem heads_at (r : Fin 16384) (j : Fin 8) :
    val_main_v15 (F := Ideal) x0 x1 x3 x4 x5 x6 (ix3 r j (0 : Fin 1))
      = Cert.Row.out (fun k => x0 (ix2 r k)) (fun k => x1 (ix2 r k)) x3 x4 x5 x6 j := by
  have el : ∀ k, lidx_main_v12 (ix3 r j (0 : Fin 1)) k = ix2 r k := fun k => funext fun d => Fin.ext (by
    match d with | ⟨0, _⟩ => rfl | ⟨1, _⟩ => rfl)
  have er : ∀ k, ridx_main_v12 (ix3 r j (0 : Fin 1)) k = ix3 j (0 : Fin 1) k := fun k => funext fun d => Fin.ext (by
    match d with | ⟨0, _⟩ => rfl | ⟨1, _⟩ => rfl | ⟨2, _⟩ => rfl)
  have eb : idx_main_v13 (idx_main_v14 (ix3 r j (0 : Fin 1))) = ix2 j (0 : Fin 1) := funext fun d => Fin.ext (by
    match d with | ⟨0, _⟩ => rfl | ⟨1, _⟩ => rfl)
  rw [val_main_v15_apply, val_main_v12_apply, val_main_v14_apply, val_main_v13_apply, eb]
  refine congrArg₂ (· + ·) ?_ rfl
  have hsum : (∑ k : Fin 2048, val_main_v11 (F := Ideal) x0 x1 x3 x4 (lidx_main_v12 (ix3 r j (0 : Fin 1)) k) * x5 (ridx_main_v12 (ix3 r j (0 : Fin 1)) k))
      = ∑ k : Fin 2048, val_main_v11 (F := Ideal) x0 x1 x3 x4 (ix2 r k) * x5 (ix3 j (0 : Fin 1) k) :=
    Finset.sum_congr rfl fun k _ => by rw [el, er]
  rw [hsum, Cert.Row.sum_split]
  refine congrArg₂ (· + ·) (Finset.sum_congr rfl fun a _ => ?_) (Finset.sum_congr rfl fun a _ => ?_)
  · show val_main_v11 (F := Ideal) x0 x1 x3 x4 (ix2 r (⟨a.val, by omega⟩ : Fin 2048)) * _ = _
    rw [comb_left]
  · show val_main_v11 (F := Ideal) x0 x1 x3 x4 (ix2 r (⟨1024 + a.val, by omega⟩ : Fin 2048)) * _ = _
    rw [comb_right]

/-! ## The selection -/

/-- The index the gather is handed is the selector itself: no wrap for a selector that is not negative. -/
theorem index_word (hs : ∀ q, Cert.Bucket.InRange (x2 q)) (i : S16384x1x1.Idx) :
    val_main_call1_v4 (F := Ideal) x2 i = x2 (idx_main_v16 i) := by
  rw [val_main_call1_v4_apply, val_main_call1_v1_apply, val_main_call1_v3_apply, val_main_v16_apply, val_main_call1_v0_apply,
    val_main_call1_c_apply, val_main_call1_v2_apply, val_main_call1_c_0_apply]
  exact Cert.Bucket.ref_wrap (hs _)

/-- The bounds test is true everywhere. -/
theorem bounds_one (hs : ∀ q, Cert.Bucket.InRange (x2 q)) (i : S16384x1x1.Idx) :
    val_main_call1_v10 (F := Ideal) x2 i = 1#1 := by
  rw [val_main_call1_v10_apply, val_main_call1_v6_apply, val_main_call1_v9_apply, index_word x2 hs, val_main_call1_v5_apply,
    val_main_call1_c_2_apply, val_main_call1_v8_apply, val_main_call1_v7_apply, val_main_call1_c_1_apply]
  exact Cert.Bucket.ref_bounds (hs _)

/-- So the mask that chooses between the gathered value and the fill is true everywhere. -/
theorem mask_one (hs : ∀ q, Cert.Bucket.InRange (x2 q)) (i : S16384x1x1.Idx) :
    val_main_call1_v13 (F := Ideal) x2 i = 1#1 := by
  rw [val_main_call1_v13_apply]
  unfold val_main_call1_v11
  exact AllOnes.reduce_andi_ones _ _ _ _ _ (fun i => bounds_one x2 hs i) (fun _ => rfl)

/-- THE REFERENCE'S RESULT at (r, 0): the output of the bucket the selector of row r names. -/
theorem result_at (hs : ∀ q, Cert.Bucket.InRange (x2 q)) (r : Fin 16384) :
    val_main_v18 (F := Ideal) x0 x1 x2 x3 x4 x5 x6 (ix2 r (0 : Fin 1))
      = Cert.Row.selected (fun k => x0 (ix2 r k)) (fun k => x1 (ix2 r k)) x3 x4 x5 x6 (x2 (ix2 r (0 : Fin 1))).toNat := by
  have e18 : idx_main_v18 (ix2 r (0 : Fin 1)) = ix3 r (0 : Fin 1) (0 : Fin 1) := funext fun d => Fin.ext (by
    match d with
    | ⟨0, _⟩ => show (r.val * 1 + 0) / 1 = r.val; omega
    | ⟨1, _⟩ => rfl
    | ⟨2, _⟩ => rfl)
  have e16 : idx_main_v16 (ix3 r (0 : Fin 1) (0 : Fin 1)) = ix2 r (0 : Fin 1) := funext fun d => Fin.ext (by
    match d with | ⟨0, _⟩ => rfl | ⟨1, _⟩ => rfl)
  rw [val_main_v18_apply, e18, val_main_v17_apply, mask_one x2 hs, select_one]
  unfold val_main_call1_v12
  refine (TakeAlong.gather_apply (B := 16384) (N := 8) gather_S16384x8x1_S16384x1x1_S16384x1x1_2_1_0_0_1_2_111_wf
    (val_main_call1_v4 (F := Ideal) x2) r (by decide) (val_main_v15 (F := Ideal) x0 x1 x3 x4 x5 x6)).trans ?_
  refine (congrArg (val_main_v15 (F := Ideal) x0 x1 x3 x4 x5 x6)
    (?_ : _ = ix3 r (⟨(x2 (ix2 r (0 : Fin 1))).toNat % 8, Nat.mod_lt _ (by decide)⟩ : Fin 8) (0 : Fin 1))).trans
    (heads_at x0 x1 x3 x4 x5 x6 r _)
  funext d; refine Fin.ext ?_
  match d with
  | ⟨0, _⟩ => rfl
  | ⟨1, _⟩ =>
    show min (val_main_call1_v4 (F := Ideal) x2 (ix3 r (0 : Fin 1) (0 : Fin 1))).toInt.toNat (8 - 1)
      = (x2 (ix2 r (0 : Fin 1))).toNat % 8
    rw [index_word x2 hs, e16, Cert.Bucket.clamp_toNat (hs _), Nat.mod_eq_of_lt (Cert.Bucket.toNat_lt (hs _))]
  | ⟨2, _⟩ => rfl

end Cert.ReferenceIdeal.RefValue

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.KernelBody.lean ====
/-
  What one grid step computes, entry by entry.

  The body takes a block of 1024 rows of each embedding (b0, b1), the block's 1024 selectors (s), and, whole, the
  transposed accumulator weights w (768 × 1024), the bias as a row (1 × 1024), the two halves of the transposed head
  weights o1, o2 (1024 × 8 each) and the head bias as a row (1 × 8). Its first part produces, at (p, j), bucket j's output
  for row p: each matmul into a zero accumulator is the plain sum over the contraction index, the bias row is broadcast
  down the rows, the clip is pointwise, and a change of float format is the identity on extended reals. Its second part
  multiplies the eight outputs of a row by the one-hot of the clamped selector and sums over the eight columns, then lays
  the column of 1024 row answers out as a 1 × 1 × 1024 block: the entry (0, 0, p) is the output of the bucket the selector
  of row p names, for a selector in [0, 8).
-/
import proofs.«408228_j83640193122666_3_alg».proof.Proof.Gen.KernelIdeal.Skeleton
import proofs.«408228_j83640193122666_3_alg».proof.Proof.Words
import proofs.«408228_j83640193122666_3_alg».proof.Proof.Spec
import proofs.«408228_j83640193122666_3_alg».proof.Proof.LibPlainDot
import proofs.«408228_j83640193122666_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The accumulator of one perspective, clipped -/

theorem acc_at (l : FVec Ideal S1024x768 .f32) (w : FVec Ideal S768x1024 .bf16) (bias : FVec Ideal S1x1024 .f32)
    (p a : Fin 1024) :
    minimumf (broadcast S1024x1024 (Scalar.ofBits (F := Ideal) .f32 0x40C00000#32))
      (maximumf (broadcast S1024x1024 (Scalar.ofBits (F := Ideal) .f32 0x00000000#32))
        (addf (matmul dot_S1024x768_S768x1024_S1024x1024_1_0_0_1_n_n none (truncf .bf16 l bitsLt_bf16_f32) w
            (constant S1024x1024 .f32 0x00000000#32))
          (broadcastTo S1024x1024 bias broadcasts_S1x1024_S1024x1024))) (ix2 p a)
      = Cert.Row.clip ((∑ k : Fin 768, l (ix2 p k) * w (ix2 k a)) + bias (ix2 (0 : Fin 1) a)) := by
  show min _ (max _ (matmul (F := Ideal) (DotDims.plain 1024 768 1024) none (truncf .bf16 l bitsLt_bf16_f32) w
      (constant S1024x1024 .f32 0x00000000#32) (ix2 p a) + broadcastTo S1024x1024 bias broadcasts_S1x1024_S1024x1024 (ix2 p a))) = _
  rw [PlainDot.matmul_zero_apply, broadcastTo_1b_ab_apply]
  rfl

/-! ## The eight bucket outputs of a row of the block -/

theorem heads_at (w : Vec Ideal S768x1024 .bf16) (b0 b1 : Vec Ideal S1024x768 .f32) (bias : Vec Ideal S1x1024 .f32)
    (o1 o2 : Vec Ideal S1024x8 .bf16) (ob : Vec Ideal S1x8 .f32) (p : Fin 1024) (j : Fin 8) :
    k0_pay2 (F := Ideal) w b0 b1 bias o1 o2 ob (ix2 p j)
      = ((∑ a : Fin 1024, Cert.Row.clip ((∑ k : Fin 768, b0 (ix2 p k) * w (ix2 k a)) + bias (ix2 (0 : Fin 1) a)) * o1 (ix2 a j))
          + (∑ a : Fin 1024, Cert.Row.clip ((∑ k : Fin 768, b1 (ix2 p k) * w (ix2 k a)) + bias (ix2 (0 : Fin 1) a)) * o2 (ix2 a j)))
        + ob (ix2 (0 : Fin 1) j) := by
  unfold k0_pay2
  simp only [shapeCast_self]
  show (matmul (F := Ideal) (DotDims.plain 1024 1024 8) none _ o1 (constant S1024x8 .f32 0x00000000#32) (ix2 p j)
      + matmul (F := Ideal) (DotDims.plain 1024 1024 8) none _ o2 (constant S1024x8 .f32 0x00000000#32) (ix2 p j))
    + broadcastTo S1024x8 ob broadcasts_S1x8_S1024x8 (ix2 p j) = _
  rw [PlainDot.matmul_zero_apply, PlainDot.matmul_zero_apply, broadcastTo_1b_ab_apply]
  refine congrArg₂ (· + ·) (congrArg₂ (· + ·) (Finset.sum_congr rfl fun a _ => congrArg (· * o1 (ix2 a j)) ?_)
    (Finset.sum_congr rfl fun a _ => congrArg (· * o2 (ix2 a j)) ?_)) rfl
  · exact acc_at b0 w bias p a
  · exact acc_at b1 w bias p a

/-! ## The selection by a one-hot sum, and the layout of the stored block -/

/-- The lane sum's operand index: row p, column k. -/
theorem lift_row (p : Fin 1024) (k : Fin 8) :
    reduces_S1024x8_S1024.lift (ix1 p) k = ix2 p k := by
  funext c; refine Fin.ext ?_
  match c with
  | ⟨0, _⟩ => rfl
  | ⟨1, _⟩ => rfl

/-- The sum over the eight columns of row p. -/
theorem lane_sum (src : FVec Ideal S1024x8 .f32) (hφ : FKind.Formats FTy.f32)
    (hacc : (0x00000000#32 : BitVec 32) = 0x00000000#32) (p : Fin 1024) :
    multiReduction .add [1] S1024 src 0x00000000#32 reduces_S1024x8_S1024 hφ hacc (ix1 p) = ∑ k : Fin 8, src (ix2 p k) :=
  (Ideal.multiReduction_add_single src 0x00000000#32 reduces_S1024x8_S1024 hφ hacc (ix1 p)).trans
    (Finset.sum_congr rfl fun k _ => congrArg src (lift_row p k))

theorem select_at (h : FVec Ideal S1024x8 .f32) (s : Vec Ideal S1024x1 .i32) (hs : ∀ q, Cert.Bucket.InRange (s q))
    (p : Fin 1024) :
    k0_pay1 (F := Ideal) h s (ix3 (0 : Fin 1) (0 : Fin 1) p)
      = h (ix2 p (⟨(s (ix2 p (0 : Fin 1))).toNat % 8, Nat.mod_lt _ (by decide)⟩ : Fin 8)) := by
  have hlt := Cert.Bucket.toNat_lt (hs (ix2 p (0 : Fin 1)))
  unfold k0_pay1
  dsimp only
  rw [shapeCast_ab_1ab_apply, transpose_ix2_apply, Columns.shapeCast_a_a1_apply]
  refine (lane_sum _ _ _ p).trans ?_
  have hterm : ∀ k : Fin 8,
      mulf h (sitofp .f32 (extui 32 (cmpi .eq (iota .tc S1024x8 32 [1] iota_S1024x8_d1_w32)
        (broadcastTo S1024x8 (minsi (broadcast S1024x1 7#32) (maxsi (broadcast S1024x1 0#32) s)) broadcasts_S1024x1_S1024x8)) natLt_1_32))
        (ix2 p k)
      = h (ix2 p k) * (if k.val = (s (ix2 p (0 : Fin 1))).toNat then (1 : EReal) else 0) := by
    intro k
    show h (ix2 p k) * FloatOps.sitofp (F := Ideal) .f32 ((IntOp.cmpi .eq (iota .tc S1024x8 32 [1] iota_S1024x8_d1_w32 (ix2 p k))
      (broadcastTo S1024x8 (minsi (broadcast S1024x1 7#32) (maxsi (broadcast S1024x1 0#32) s)) broadcasts_S1024x1_S1024x8 (ix2 p k))).setWidth 32) = _
    rw [iota_single_apply, Columns.broadcastTo_a1_ab_apply]
    show h (ix2 p k) * FloatOps.sitofp (F := Ideal) .f32 ((IntOp.cmpi .eq (BitVec.ofNat 32 k.val)
      (IntOp.minsi 7#32 (IntOp.maxsi 0#32 (s (ix2 p (0 : Fin 1)))))).setWidth 32) = _
    rw [Cert.Bucket.kernel_clamp (hs _), Cert.Bucket.cmp_col (hs _) k]
    split
    · rw [Cert.Bucket.onehot_one]
    · rw [Cert.Bucket.onehot_zero]
  rw [Finset.sum_congr rfl fun k _ => hterm k, Cert.Row.sum_indicator (fun k => h (ix2 p k)) _ hlt]
  exact congrArg (fun q : Fin 8 => h (ix2 p q)) (Fin.ext (Nat.mod_eq_of_lt hlt).symm)

/-! ## One grid step's block, against the row formula -/

/-- Entry (0, 0, p) of the block a grid step stores is the row formula of row p of the two embedding blocks, when the
    whole operands are the transposed accumulator weights, the bias row, the two halves of the transposed head weights and
    the head bias row of arrays W, b, O, ob2. -/
theorem block_at (w : Vec Ideal S768x1024 .bf16) (b0 b1 : Vec Ideal S1024x768 .f32) (bias : Vec Ideal S1x1024 .f32)
    (o1 o2 : Vec Ideal S1024x8 .bf16) (ob : Vec Ideal S1x8 .f32) (s : Vec Ideal S1024x1 .i32)
    (hs : ∀ q, Cert.Bucket.InRange (s q))
    (W : (⟨2, ![1024, 768]⟩ : Shape).Idx → EReal) (b : (⟨1, ![1024]⟩ : Shape).Idx → EReal)
    (O : (⟨3, ![8, 1, 2048]⟩ : Shape).Idx → EReal) (ob2 : (⟨2, ![8, 1]⟩ : Shape).Idx → EReal)
    (hw : ∀ (k : Fin 768) (a : Fin 1024), w (ix2 k a) = W (ix2 a k))
    (hb : ∀ a : Fin 1024, bias (ix2 (0 : Fin 1) a) = b (ix1 a))
    (ho1 : ∀ (a : Fin 1024) (j : Fin 8), o1 (ix2 a j) = O (ix3 j (0 : Fin 1) (⟨a.val, by omega⟩ : Fin 2048)))
    (ho2 : ∀ (a : Fin 1024) (j : Fin 8), o2 (ix2 a j) = O (ix3 j (0 : Fin 1) (⟨1024 + a.val, by omega⟩ : Fin 2048)))
    (hob : ∀ j : Fin 8, ob (ix2 (0 : Fin 1) j) = ob2 (ix2 j (0 : Fin 1)))
    (p : Fin 1024) :
    k0_pay1 (F := Ideal) (k0_pay2 (F := Ideal) w b0 b1 bias o1 o2 ob) s (ix3 (0 : Fin 1) (0 : Fin 1) p)
      = Cert.Row.selected (fun k => b0 (ix2 p k)) (fun k => b1 (ix2 p k)) W b O ob2 (s (ix2 p (0 : Fin 1))).toNat := by
  rw [select_at _ s hs p, heads_at]
  unfold Cert.Row.selected Cert.Row.out Cert.Row.act
  simp only [hw, hb, ho1, ho2, hob]

end Cert.KernelIdeal.Body

end
-- ==== Proof.KernelValue.lean ====
/-
  The kernel's result array, entry by entry.

  The region has sixteen grid steps; step t reads rows 1024 t … 1024 t + 1023 of the two embeddings and of the selectors,
  and, whole, five arrays the host lines before it computed from the weights: the accumulator weights transposed, the
  bias as a row, the head weights reshaped to 8 × 2048, transposed and cut at row 1024 into two halves, and the head bias
  as a row. It writes block (t, 0, 0) of a 16 × 1 × 1024 array; the sixteen blocks tile that array, so after the region
  entry (t, 0, p) is the row formula of row 1024 t + p. The host line after the region reshapes the array to 16384 × 1,
  which reads (r / 1024, 0, r mod 1024) at (r, 0): the row formula of row r.
-/
import proofs.«408228_j83640193122666_3_alg».proof.Proof.Gen.KernelIdeal.Frame
import proofs.«408228_j83640193122666_3_alg».proof.Proof.KernelBody
import Idealize.ShloMosaic.Lib.Pipeline.Value
import Idealize.ShloMosaic.Lib.StableHlo.Run
import Idealize.ShloMosaic.Lib.Tactic
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The argument arrays, and the answer for a row -/

abbrev stm (c : Dev nD) : S16384x768.Idx → EReal := m ((c : Thread nD τ).loc main_arg0)
abbrev nstm (c : Dev nD) : S16384x768.Idx → EReal := m ((c : Thread nD τ).loc main_arg1)
abbrev sel (c : Dev nD) : S16384x1.Idx → BitVec 32 := m ((c : Thread nD τ).loc main_arg2)
abbrev accW (c : Dev nD) : S1024x768.Idx → EReal := m ((c : Thread nD τ).loc main_arg3)
abbrev accB (c : Dev nD) : S1024.Idx → EReal := m ((c : Thread nD τ).loc main_arg4)
abbrev outW (c : Dev nD) : S8x1x2048.Idx → EReal := m ((c : Thread nD τ).loc main_arg5)
abbrev outB (c : Dev nD) : S8x1.Idx → EReal := m ((c : Thread nD τ).loc main_arg6)

/-- The row formula at row r of the arguments. -/
def rowAns (c : Dev nD) (r : Fin 16384) : EReal :=
  Cert.Row.selected (fun k => stm m c (ix2 r k)) (fun k => nstm m c (ix2 r k)) (accW m c) (accB m c) (outW m c) (outB m c)
    (sel m c (ix2 r (0 : Fin 1))).toNat

/-- The region's output array: entry (t, 0, p) answers row 1024 t + p. -/
def tiles (c : Dev nD) : S16x1x1024.Idx → EReal := fun i =>
  rowAns m c ⟨(i 0).val * 1024 + (i 2).val, by
    have h0 : (i 0).val < 16 := (i 0).isLt
    have h2 : (i 2).val < 1024 := (i 2).isLt
    omega⟩

/-- The program's result: entry (r, 0) answers row r. -/
def result (c : Dev nD) : S16384x1.Idx → EReal := fun i => rowAns m c ⟨(i 0).val, (i 0).isLt⟩

/-! ## The printed index maps, decided over the grid -/

theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 3) = t.val ∧ win0_8.index t (1 : Fin 3) = 0 ∧ win0_8.index t (2 : Fin 3) = 0 :=
  (by decide +kernel : ∀ t : Fin grid0.N, _)

theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem t_lt (t : Fin cfg0.N) : t.val < 16 := by
  have h := t.isLt
  have hN : cfg0.N = 16 := N_0
  omega

/-! ## What the host lines before the region leave in the five computed arrays -/

theorem V_v1 (c : Dev nD) : (V m c main_v1 : S768x1024.Idx → EReal)
    = truncf (F := Ideal) .bf16 (transpose S768x1024 [1, 0] (accW m c) transposes_S1024x768_S768x1024_1_0) bitsLt_bf16_f32 := by
  show StableHlo.after hostOps0 (fun b => m (c, b)) (Proc.devRef .tc main_v1) = _
  after_results
  all_goals rfl

theorem V_v2 (c : Dev nD) : (V m c main_v2 : S1x1024.Idx → EReal) = shapeCast S1x1024 (accB m c) shapeCasts_S1024_S1x1024 := by
  show StableHlo.after hostOps0 (fun b => m (c, b)) (Proc.devRef .tc main_v2) = _
  after_results
  all_goals rfl

theorem V_v6 (c : Dev nD) : (V m c main_v6 : S1024x8.Idx → EReal)
    = truncf (F := Ideal) .bf16 (extractStridedSlice S1024x8 ![0, 0]
        (transpose S2048x8 [1, 0] (shapeCast S8x2048 (outW m c) shapeCasts_S8x1x2048_S8x2048) transposes_S8x2048_S2048x8_1_0)
        slices_S2048x8_S1024x8_0_0) bitsLt_bf16_f32 := by
  show StableHlo.after hostOps0 (fun b => m (c, b)) (Proc.devRef .tc main_v6) = _
  after_results
  all_goals rfl

theorem V_v8 (c : Dev nD) : (V m c main_v8 : S1024x8.Idx → EReal)
    = truncf (F := Ideal) .bf16 (extractStridedSlice S1024x8 ![1024, 0]
        (transpose S2048x8 [1, 0] (shapeCast S8x2048 (outW m c) shapeCasts_S8x1x2048_S8x2048) transposes_S8x2048_S2048x8_1_0)
        slices_S2048x8_S1024x8_1024_0) bitsLt_bf16_f32 := by
  show StableHlo.after hostOps0 (fun b => m (c, b)) (Proc.devRef .tc main_v8) = _
  after_results
  all_goals rfl

theorem V_v10 (c : Dev nD) : (V m c main_v10 : S1x8.Idx → EReal)
    = shapeCast S1x8 (shapeCast S8 (outB m c) shapeCasts_S8x1_S8) shapeCasts_S8_S1x8 := by
  show StableHlo.after hostOps0 (fun b => m (c, b)) (Proc.devRef .tc main_v10) = _
  after_results
  all_goals rfl

/-- The transposed weights at (k, a) are the weights at (a, k). -/
theorem w_at (c : Dev nD) (k : Fin 768) (a : Fin 1024) :
    (V m c main_v1 : S768x1024.Idx → EReal) (ix2 k a) = accW m c (ix2 a k) := by
  rw [V_v1]
  exact transpose_ix2_apply (accW m c) _ k a

/-- The bias row at (0, a) is the bias at a. -/
theorem bias_at (c : Dev nD) (a : Fin 1024) :
    (V m c main_v2 : S1x1024.Idx → EReal) (ix2 (0 : Fin 1) a) = accB m c (ix1 a) := by
  rw [V_v2]
  exact shapeCast_a_1a_apply (accB m c) _ 0 a

/-- The reshaped head weights at (j, d) are the head weights at (j, 0, d). -/
theorem outW2_at (c : Dev nD) (j : Fin 8) (d : Fin 2048) :
    shapeCast S8x2048 (outW m c) shapeCasts_S8x1x2048_S8x2048 (ix2 j d) = outW m c (ix3 j (0 : Fin 1) d) :=
  shapeCast_apply (outW m c) _ _ _ (by
    rw [Shape.rowMajor_val_three, Shape.rowMajor_val_two]
    show (j.val * 1 + 0) * 2048 + d.val = j.val * 2048 + d.val
    omega)

/-- The first half of the transposed head weights at (a, j). -/
theorem o1_at (c : Dev nD) (a : Fin 1024) (j : Fin 8) :
    (V m c main_v6 : S1024x8.Idx → EReal) (ix2 a j) = outW m c (ix3 j (0 : Fin 1) (⟨a.val, by omega⟩ : Fin 2048)) := by
  rw [V_v6]
  refine (truncf_apply (φ := .f32) _ bitsLt_bf16_f32 (ix2 a j)).trans ?_
  rw [slice2_axis0_apply 0 _ _ a j (⟨a.val, by omega⟩ : Fin 2048) (Nat.zero_add _).symm, transpose_ix2_apply, outW2_at]

/-- The second half at (a, j). -/
theorem o2_at (c : Dev nD) (a : Fin 1024) (j : Fin 8) :
    (V m c main_v8 : S1024x8.Idx → EReal) (ix2 a j) = outW m c (ix3 j (0 : Fin 1) (⟨1024 + a.val, by omega⟩ : Fin 2048)) := by
  rw [V_v8]
  refine (truncf_apply (φ := .f32) _ bitsLt_bf16_f32 (ix2 a j)).trans ?_
  rw [slice2_axis0_apply 1024 _ _ a j (⟨1024 + a.val, by omega⟩ : Fin 2048) rfl, transpose_ix2_apply, outW2_at]

/-- The head bias row at (0, j) is the head bias at (j, 0). -/
theorem ob_at (c : Dev nD) (j : Fin 8) :
    (V m c main_v10 : S1x8.Idx → EReal) (ix2 (0 : Fin 1) j) = outB m c (ix2 j (0 : Fin 1)) := by
  rw [V_v10, shapeCast_a_1a_apply, Columns.shapeCast_a1_a_apply]

/-! ## Each window's block at a grid step -/

abbrev bStm (c : Dev nD) (t : Fin cfg0.N) : Vec Ideal S1024x768 .f32 := iblk m c 0 t
abbrev bNstm (c : Dev nD) (t : Fin cfg0.N) : Vec Ideal S1024x768 .f32 := iblk m c 1 t
abbrev bSel (c : Dev nD) (t : Fin cfg0.N) : Vec Ideal S1024x1 .i32 := iblk m c 2 t
abbrev bW (c : Dev nD) (t : Fin cfg0.N) : Vec Ideal S768x1024 .bf16 := iblk m c 3 t
abbrev bBias (c : Dev nD) (t : Fin cfg0.N) : Vec Ideal S1x1024 .f32 := iblk m c 4 t
abbrev bO1 (c : Dev nD) (t : Fin cfg0.N) : Vec Ideal S1024x8 .bf16 := iblk m c 5 t
abbrev bO2 (c : Dev nD) (t : Fin cfg0.N) : Vec Ideal S1024x8 .bf16 := iblk m c 6 t
abbrev bOb (c : Dev nD) (t : Fin cfg0.N) : Vec Ideal S1x8 .f32 := iblk m c 7 t

/-- Row p of step t's block of the first embedding is row 1024 t + p of the array. -/
theorem bStm_at (c : Dev nD) (t : Fin cfg0.N) (p : Fin 1024) (k : Fin 768) :
    bStm m c t (ix2 p k) = stm m c (ix2 (⟨t.val * 1024 + p.val, by have := t_lt t; omega⟩ : Fin 16384) k) := by
  obtain ⟨e0, e1, -⟩ := idx_rows t
  simp only [bStm, bNstm, bSel, bW, bBias, bO1, bO2, bOb]
  unfold iblk
  rw [View.read_apply]
  show V m c main_arg0 _ = _
  rw [V_main_arg0]
  refine congrArg (stm m c) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 768 + 1 * k.val = k.val; rw [e1]; omega

theorem bNstm_at (c : Dev nD) (t : Fin cfg0.N) (p : Fin 1024) (k : Fin 768) :
    bNstm m c t (ix2 p k) = nstm m c (ix2 (⟨t.val * 1024 + p.val, by have := t_lt t; omega⟩ : Fin 16384) k) := by
  obtain ⟨-, -, e0, e1, -⟩ := idx_rows t
  simp only [bStm, bNstm, bSel, bW, bBias, bO1, bO2, bOb]
  unfold iblk
  rw [View.read_apply]
  show V m c main_arg1 _ = _
  rw [V_main_arg1]
  refine congrArg (nstm m c) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 768 + 1 * k.val = k.val; rw [e1]; omega

/-- Every selector of a block is a selector of the array. -/
theorem bSel_eq (c : Dev nD) (t : Fin cfg0.N) (q : S1024x1.Idx) :
    bSel m c t q = sel m c (((cfg0.win 2).blk t).view.emb q) := by
  simp only [bStm, bNstm, bSel, bW, bBias, bO1, bO2, bOb]
  unfold iblk
  rw [View.read_apply]
  show V m c main_arg2 _ = _
  rw [V_main_arg2]

theorem bSel_at (c : Dev nD) (t : Fin cfg0.N) (p : Fin 1024) :
    bSel m c t (ix2 p (0 : Fin 1)) = sel m c (ix2 (⟨t.val * 1024 + p.val, by have := t_lt t; omega⟩ : Fin 16384) (0 : Fin 1)) := by
  obtain ⟨-, -, -, -, e0, e1, -⟩ := idx_rows t
  rw [bSel_eq]
  refine congrArg (sel m c) (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 1 + 1 * 0 = 0; rw [e1]

/-- A window that stages its whole array has that array as its block at every step. -/
theorem bW_eq (c : Dev nD) (t : Fin cfg0.N) : bW m c t = (V m c main_v1 : S768x1024.Idx → EReal) := by
  obtain ⟨e0, e1, -⟩ := idx_whole t
  funext y
  simp only [bStm, bNstm, bSel, bW, bBias, bO1, bO2, bOb]
  unfold iblk
  rw [View.read_apply]
  show V m c main_v1 _ = _
  refine congrArg (V m c main_v1 : S768x1024.Idx → EReal) (funext fun a => Fin.ext ?_)
  match a with
  | ⟨0, _⟩ => show win0_3.index t (0 : Fin 2) * 768 + 1 * (y 0).val = (y 0).val; rw [e0]; omega
  | ⟨1, _⟩ => show win0_3.index t (1 : Fin 2) * 1024 + 1 * (y 1).val = (y 1).val; rw [e1]; omega

theorem bBias_eq (c : Dev nD) (t : Fin cfg0.N) : bBias m c t = (V m c main_v2 : S1x1024.Idx → EReal) := by
  obtain ⟨-, -, e0, e1, -⟩ := idx_whole t
  funext y
  simp only [bStm, bNstm, bSel, bW, bBias, bO1, bO2, bOb]
  unfold iblk
  rw [View.read_apply]
  show V m c main_v2 _ = _
  refine congrArg (V m c main_v2 : S1x1024.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

theorem bO1_eq (c : Dev nD) (t : Fin cfg0.N) : bO1 m c t = (V m c main_v6 : S1024x8.Idx → EReal) := by
  obtain ⟨-, -, -, -, e0, e1, -⟩ := idx_whole t
  funext y
  simp only [bStm, bNstm, bSel, bW, bBias, bO1, bO2, bOb]
  unfold iblk
  rw [View.read_apply]
  show V m c main_v6 _ = _
  refine congrArg (V m c main_v6 : S1024x8.Idx → EReal) (funext fun a => Fin.ext ?_)
  match a with
  | ⟨0, _⟩ => show win0_5.index t (0 : Fin 2) * 1024 + 1 * (y 0).val = (y 0).val; rw [e0]; omega
  | ⟨1, _⟩ => show win0_5.index t (1 : Fin 2) * 8 + 1 * (y 1).val = (y 1).val; rw [e1]; omega

theorem bO2_eq (c : Dev nD) (t : Fin cfg0.N) : bO2 m c t = (V m c main_v8 : S1024x8.Idx → EReal) := by
  obtain ⟨-, -, -, -, -, -, e0, e1, -⟩ := idx_whole t
  funext y
  simp only [bStm, bNstm, bSel, bW, bBias, bO1, bO2, bOb]
  unfold iblk
  rw [View.read_apply]
  show V m c main_v8 _ = _
  refine congrArg (V m c main_v8 : S1024x8.Idx → EReal) (funext fun a => Fin.ext ?_)
  match a with
  | ⟨0, _⟩ => show win0_6.index t (0 : Fin 2) * 1024 + 1 * (y 0).val = (y 0).val; rw [e0]; omega
  | ⟨1, _⟩ => show win0_6.index t (1 : Fin 2) * 8 + 1 * (y 1).val = (y 1).val; rw [e1]; omega

theorem bOb_eq (c : Dev nD) (t : Fin cfg0.N) : bOb m c t = (V m c main_v10 : S1x8.Idx → EReal) := by
  obtain ⟨-, -, -, -, -, -, -, -, e0, e1⟩ := idx_whole t
  funext y
  simp only [bStm, bNstm, bSel, bW, bBias, bO1, bO2, bOb]
  unfold iblk
  rw [View.read_apply]
  show V m c main_v10 _ = _
  refine congrArg (V m c main_v10 : S1x8.Idx → EReal) (funext fun a => Fin.ext ?_)
  match a with
  | ⟨0, _⟩ => show win0_7.index t (0 : Fin 2) * 1 + 1 * (y 0).val = (y 0).val; rw [e0]; omega
  | ⟨1, _⟩ => show win0_7.index t (1 : Fin 2) * 8 + 1 * (y 1).val = (y 1).val; rw [e1]; omega

/-! ## What a grid step writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block step t stores, entry by entry: the row formula of rows 1024 t … 1024 t + 1023. -/
theorem stored_at (c : Dev nD) (hs : ∀ q, Cert.Bucket.InRange (sel m c q)) (t : Fin cfg0.N) (y : S1x1x1024.Idx) :
    k0_pay1 (F := Ideal) (k0_pay2 (F := Ideal) (bW m c t) (bStm m c t) (bNstm m c t) (bBias m c t) (bO1 m c t) (bO2 m c t) (bOb m c t))
      (bSel m c t) y = tiles m c (((cfg0.win 8).blk t).view.emb y) := by
  obtain ⟨-, -, -, -, -, -, e0, e1, e2⟩ := idx_rows t
  obtain ⟨u, v, p, rfl⟩ : ∃ (u v : Fin 1) (p : Fin 1024), y = ix3 u v p := ⟨y 0, y 1, y 2, eq_ix3 y⟩
  obtain rfl : u = 0 := Subsingleton.elim _ _
  obtain rfl : v = 0 := Subsingleton.elim _ _
  rw [Cert.KernelIdeal.Body.block_at (bW m c t) (bStm m c t) (bNstm m c t) (bBias m c t) (bO1 m c t) (bO2 m c t) (bOb m c t)
    (bSel m c t) (fun q => by rw [bSel_eq]; exact hs _) (accW m c) (accB m c) (outW m c) (outB m c)
    (fun k a => by rw [bW_eq]; exact w_at m c k a) (fun a => by rw [bBias_eq]; exact bias_at m c a)
    (fun a j => by rw [bO1_eq]; exact o1_at m c a j) (fun a j => by rw [bO2_eq]; exact o2_at m c a j)
    (fun j => by rw [bOb_eq]; exact ob_at m c j) p]
  simp only [bStm_at, bNstm_at, bSel_at]
  unfold tiles rowAns
  have hr : (⟨t.val * 1024 + p.val, by have := t_lt t; omega⟩ : Fin 16384)
      = ⟨((((cfg0.win 8).blk t).view.emb (ix3 (0 : Fin 1) (0 : Fin 1) p)) 0).val * 1024
          + ((((cfg0.win 8).blk t).view.emb (ix3 (0 : Fin 1) (0 : Fin 1) p)) 2).val, by
            have h0 : ((((cfg0.win 8).blk t).view.emb (ix3 (0 : Fin 1) (0 : Fin 1) p)) 0).val < 16 := Fin.isLt _
            have h2 : ((((cfg0.win 8).blk t).view.emb (ix3 (0 : Fin 1) (0 : Fin 1) p)) 2).val < 1024 := Fin.isLt _
            omega⟩ := by
    refine Fin.ext ?_
    show t.val * 1024 + p.val = (win0_8.index t (0 : Fin 3) * 1 + 1 * 0) * 1024 + (win0_8.index t (2 : Fin 3) * 1024 + 1 * p.val)
    rw [e0, e2]; omega
  rw [hr]

/-- WHAT STEP t WRITES BACK is block t of the output array's function. -/
theorem flushed_eq (c : Dev nD) (hs : ∀ q, Cert.Bucket.InRange (sel m c q)) (t : Fin cfg0.N) :
    (dats m 0 c).flushed 8 t = ((cfg0.win 8).blk t).view.read (Elt Ideal) (tiles m c) := by
  show (cfg0.win 8).cut (grid0.coords t) ((dats m 0 c).after 8 t) = _
  rw [after0_8]
  unfold out0_8
  rw [View.canon_unit_zero hz3]
  simp only [View.ld_unit_zero (S := S768x1024) hz2, View.ld_unit_zero (S := S1024x768) hz2, View.ld_unit_zero (S := S1x1024) hz2,
    View.ld_unit_zero (S := S1024x8) hz2, View.ld_unit_zero (S := S1x8) hz2, View.ld_unit_zero (S := S1024x1) hz2]
  exact funext (stored_at m c hs t)

/-! ## The sixteen blocks tile the output array -/

theorem mem_blk (t : Fin cfg0.N) (i : S16x1x1024.Idx) :
    i ∈ ((cfg0.win 8).blk t).view.set ↔ ∀ a : Fin 3, win0_8.index t a * S1x1x1024.size a ≤ (i a).val
      ∧ (i a).val < win0_8.index t a * S1x1x1024.size a + S1x1x1024.size a := by
  show i ∈ ((View.whole main_v11).slice (win0_8.rect t)).set ↔ _
  rw [View.set_slice_whole, Rect.mem_set_unit]
  exact Iff.rfl

theorem covered (i : S16x1x1024.Idx) : ∃ t : Fin cfg0.N, (cfg0.win 8).flush t = true ∧ i ∈ ((cfg0.win 8).blk t).view.set := by
  have h0 : (i 0).val < 16 := (i 0).isLt
  have h1 : (i 1).val < 1 := (i 1).isLt
  have h2 : (i 2).val < 1024 := (i 2).isLt
  have hN : cfg0.N = 16 := N_0
  obtain ⟨t, ht⟩ : ∃ t : Fin cfg0.N, t.val = (i 0).val := ⟨⟨(i 0).val, by omega⟩, rfl⟩
  refine ⟨t, flush0_8 t, ?_⟩
  obtain ⟨-, -, -, -, -, -, e0, e1, e2⟩ := idx_rows t
  rw [mem_blk]
  intro a
  match a with
  | ⟨0, _⟩ =>
    show win0_8.index t (0 : Fin 3) * 1 ≤ (i 0).val ∧ (i 0).val < win0_8.index t (0 : Fin 3) * 1 + 1
    rw [e0]; omega
  | ⟨1, _⟩ =>
    show win0_8.index t (1 : Fin 3) * 1 ≤ (i 1).val ∧ (i 1).val < win0_8.index t (1 : Fin 3) * 1 + 1
    rw [e1]; omega
  | ⟨2, _⟩ =>
    show win0_8.index t (2 : Fin 3) * 1024 ≤ (i 2).val ∧ (i 2).val < win0_8.index t (2 : Fin 3) * 1024 + 1024
    rw [e2]; omega

/-- THE OUTPUT ARRAY after the region. -/
theorem final (c : Dev nD) (hs : ∀ q, Cert.Bucket.InRange (sel m c q)) : (dats m 0 c).arrAt 8 cfg0.N = tiles m c :=
  (dats m 0 c).arrAt_eq_of_cover 8 (tiles m c) (fun t _ => flushed_eq m c hs t) covered

/-! ## The host line after the region, and the run -/

theorem tail_eq (c : Dev nD) (hs : ∀ q, Cert.Bucket.InRange (sel m c q)) :
    (Pipeline.afterTail₀ cfgs (dats m) 0 (V0 m) [hostOps1] c main_v12 : S16384x1.Idx → EReal) = result m c := by
  have hw : (Pipeline.withArrays (cfgs 0).spec c (V0 m c) (fun w => (dats m 0 c).arrAt w (cfgs 0).N)
      (Proc.devRef .tc main_v11) : S16x1x1024.Idx → EReal) = tiles m c :=
    (Pipeline.withArrays_arr spec0 launch0.win.arr_inj c _ _ 8).trans (final m c hs)
  unfold Pipeline.afterTail₀
  show StableHlo.after hostOps1 _ (Proc.devRef .tc main_v12) = _
  after_results
  funext i
  show shapeCast S16384x1 (Pipeline.withArrays (cfgs 0).spec c (V0 m c) (fun w => (dats m 0 c).arrAt w (cfgs 0).N)
      (Proc.devRef .tc main_v11) : S16x1x1024.Idx → EReal) shapeCasts_S16x1x1024_S16384x1 i = _
  rw [hw]
  obtain ⟨r, u, rfl⟩ : ∃ (r : Fin 16384) (u : Fin 1), i = ix2 r u := ⟨i 0, i 1, eq_ix2 i⟩
  have hu : u.val = 0 := by omega
  refine (shapeCast_apply (tiles m c) shapeCasts_S16x1x1024_S16384x1 (ix2 r u)
    (ix3 (⟨r.val / 1024, by omega⟩ : Fin 16) (0 : Fin 1) (⟨r.val % 1024, Nat.mod_lt _ (by decide)⟩ : Fin 1024)) ?_).trans ?_
  · rw [Shape.rowMajor_val_three, Shape.rowMajor_val_two]
    show (r.val / 1024 * 1 + 0) * 1024 + r.val % 1024 = r.val * 1 + u.val
    omega
  · unfold tiles result
    refine congrArg (rowAns m c) (Fin.ext ?_)
    show r.val / 1024 * 1024 + r.val % 1024 = r.val
    omega

/-- THE KERNEL'S RUN, read: the result at the row formula of every row, the arguments unchanged. -/
theorem run (hs : ∀ c q, Cert.Bucket.InRange (sel m c q)) :
    θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v12 (Pipeline.mem_restRefs_of main_v12 (by decide) (by decide))).trans (tail_eq m c (hs c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.PreDecode.lean ====
/-
  The precondition, read back at the selectors.

  The precondition is a conjunction of "all" tests: six of finiteness of the float inputs, then that every selector is at
  least 0 and that every selector is below 8 (signed comparisons). When it holds, its last two conjuncts say of each
  selector word exactly that it is a valid bucket index. The float conjuncts are not opened: the two programs agree on
  every extended real, finite or not.
-/
import proofs.«408228_j83640193122666_3_alg».proof.Proof.Gen.Pre_finite_inputs
import proofs.«408228_j83640193122666_3_alg».proof.Proof.Words
import Idealize.ShloMosaic.Lib.ReduceAll
import Idealize.ShloMosaic.Lib.ValueIdx

noncomputable section

namespace Cert.Pre_finite_inputs.Decode

open Cert.Pre_finite_inputs Cert.Pre_finite_inputs.Gen
open Idealize.ShloMosaic Idealize.ShloMosaic.ValueIdx

variable {F : FTy → Type} [FloatOps F]

theorem selectors_in_range (a0 a1 : FVec F S16384x768 .f32) (a2 : IVec S16384x1 32) (a3 : FVec F S1024x768 .f32)
    (a4 : FVec F S1024 .f32) (a5 : FVec F S8x1x2048 .f32) (a6 : FVec F S8x1 .f32)
    (h : fn (F := F) a0 a1 a2 a3 a4 a5 a6 = fun _ => 1#1) (q : S16384x1.Idx) : Cert.Bucket.InRange (a2 q) := by
  haveI : Subsingleton S_.Idx := ⟨fun a b => funext fun d => d.elim0⟩
  have h0 := congrFun h ix0
  unfold fn fn_part1 fn_part2 at h0
  dsimp only at h0
  obtain ⟨hA, hB⟩ := IntOp.andi_eq_one.1 h0
  obtain ⟨_, hC⟩ := IntOp.andi_eq_one.1 hA
  exact ⟨Host.reduce_andi_all _ _ _ _ _ hC q, Host.reduce_andi_all _ _ _ _ _ hB q⟩

end Cert.Pre_finite_inputs.Decode

end
-- ==== Proof.lean ====
/-
  A NNUE-style bucketed head: the kernel against its jnp reference, over the extended reals.

  Both programs compute, for each of 16384 rows, two clipped accumulators act0, act1 (a 768-term product with the
  accumulator weights plus a bias, clipped to [0, 6]), eight bucket outputs (a product of the 2048 concatenated
  activations with each bucket's head weights, plus the head bias), and return the output of the bucket the row's
  selector names. They differ in arrangement only: the kernel adds two 1024-term products where the reference takes one
  2048-term product of the concatenation (a finite sum split at the concatenation boundary: Spec), it picks the bucket by
  a sum against a one-hot of the selector clamped into [0, 7] where the reference gathers along the bucket axis (with
  negative indices wrapped and out-of-range ones filled by NaN), and it works on blocks of 1024 rows whose answers it lays
  out as a 16 × 1 × 1024 array that the host reshapes. On a selector in [0, 8) the clamp, the wrap and the fill do nothing
  and both selections return that bucket's output; the precondition says every selector is such a word (PreDecode).
  No law used needs finiteness, so the finiteness conjuncts of the precondition are never opened.

  The three frames: the kernels' are the generated ones; the reference has no kernel and its frame is its run with the
  result dropped. The idealization rewrote nothing, so "preserves" is the true proposition. For the algebraic claim the
  common result is named (KernelValue.result: entry (r, 0) is the row formula of row r), the kernel's run is read off its
  frame run (KernelValue), and the reference's run is read one operation at a time (RefValue).
-/
import proofs.«408228_j83640193122666_3_alg».proof.Defs
import proofs.«408228_j83640193122666_3_alg».proof.Proof.Gen.Kernel
import proofs.«408228_j83640193122666_3_alg».proof.Proof.Gen.Kernel.Skeleton
import proofs.«408228_j83640193122666_3_alg».proof.Proof.Gen.Kernel.Launch
import proofs.«408228_j83640193122666_3_alg».proof.Proof.Gen.Kernel.Points
import proofs.«408228_j83640193122666_3_alg».proof.Proof.Gen.Kernel.Frame
import proofs.«408228_j83640193122666_3_alg».proof.Proof.Gen.KernelIdeal
import proofs.«408228_j83640193122666_3_alg».proof.Proof.Gen.KernelIdeal.Skeleton
import proofs.«408228_j83640193122666_3_alg».proof.Proof.Gen.KernelIdeal.Launch
import proofs.«408228_j83640193122666_3_alg».proof.Proof.Gen.KernelIdeal.Points
import proofs.«408228_j83640193122666_3_alg».proof.Proof.Gen.KernelIdeal.Frame
import proofs.«408228_j83640193122666_3_alg».proof.Proof.Gen.ReferenceIdeal
import proofs.«408228_j83640193122666_3_alg».proof.Proof.Gen.Pre_finite_inputs
import proofs.«408228_j83640193122666_3_alg».proof.Proof.RefRun
import proofs.«408228_j83640193122666_3_alg».proof.Proof.RefRead
import proofs.«408228_j83640193122666_3_alg».proof.Proof.RefValue
import proofs.«408228_j83640193122666_3_alg».proof.Proof.KernelValue
import proofs.«408228_j83640193122666_3_alg».proof.Proof.PreDecode
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with entry (r, 0) of the result at the row formula of row r of the (agreeing) arguments. -/
theorem algebraic : Cert.algebraic_KernelIdeal_ReferenceIdeal := by
  intro m ρ m' ρ' hpre hagree
  have hs : ∀ c q, Cert.Bucket.InRange (Cert.KernelIdeal.KValue.sel m c q) := fun c q =>
    Cert.Pre_finite_inputs.Decode.selectors_in_range (F := Ideal) _ _ _ _ _ _ _ (hpre c) q
  refine ⟨fun c => Cert.KernelIdeal.KValue.result m c, Cert.KernelIdeal.KValue.run m ρ hs, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v18_eq (F := Ideal) _ _ _ _ _ _ _).trans ?_
  obtain ⟨a0, a1, a2, a3, a4, a5, a6⟩ := hagree c
  rw [a0, a1, a2, a3, a4, a5, a6]
  funext i
  obtain ⟨r, u, rfl⟩ : ∃ (r : Fin 16384) (u : Fin 1), i = ix2 r u := ⟨i 0, i 1, eq_ix2 i⟩
  obtain rfl : u = 0 := Subsingleton.elim _ _
  exact Cert.ReferenceIdeal.RefValue.result_at _ _ _ _ _ _ _ (hs c) r

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
